-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩

abbrev nBuf : Space → Nat
  | .hbm => 84
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x128, .f32⟩
  | .hbm, ⟨75, _⟩ => ⟨S1700000x1, .f32⟩
  | .hbm, ⟨76, _⟩ => ⟨S1700000x128, .f32⟩
  | .hbm, ⟨77, _⟩ => ⟨S1700000x128, .f32⟩
  | .hbm, ⟨78, _⟩ => ⟨S_, .f32⟩
  | .hbm, ⟨79, _⟩ => ⟨S100000x128, .f32⟩
  | .hbm, ⟨80, _⟩ => ⟨S1700000x1, .i32⟩
  | .hbm, ⟨81, _⟩ => ⟨S100000x128, .f32⟩
  | .hbm, ⟨82, _⟩ => ⟨S1x128, .f32⟩
  | .hbm, ⟨83, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S1x128, .f32⟩
  | .local _ .vmem, ⟨18, _⟩ => ⟨S10000x128, .f32⟩
  | .local _ .vmem, ⟨19, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S100000x128.size a
  hwx3_2 : ∀ i : grid3.Coords, EltTy.bits .f32 = 32 ∨ (Rect.block (s := S100000x128) S10000x128.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 122
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S100000x128, .f32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x128, .f32⟩
  | .hbm, ⟨70, _⟩ => ⟨S_, .f32⟩
  | .hbm, ⟨71, _⟩ => ⟨S1700000, .f32⟩
  | .hbm, ⟨72, _⟩ => ⟨S_, .f32⟩
  | .hbm, ⟨73, _⟩ => ⟨S100000, .f32⟩
  | .hbm, ⟨74, _⟩ => ⟨S1700000x1, .i32⟩
  | .hbm, ⟨75, _⟩ => ⟨S100000, .f32⟩
  | .hbm, ⟨76, _⟩ => ⟨S_, .f32⟩
  | .hbm, ⟨77, _⟩ => ⟨S100000, .f32⟩
  | .hbm, ⟨78, _⟩ => ⟨S100000, .i1⟩
  | .hbm, ⟨79, _⟩ => ⟨S100000, .f32⟩
  | .hbm, ⟨80, _⟩ => ⟨S_, .f32⟩
  | .hbm, ⟨81, _⟩ => ⟨S_, .f32⟩
  | .hbm, ⟨82, _⟩ => ⟨S100000, .f32⟩
  | .hbm, ⟨83, _⟩ => ⟨S100000, .f32⟩
  | .hbm, ⟨84, _⟩ => ⟨S_, .i32⟩
  | .hbm, ⟨85, _⟩ => ⟨S1700000, .i32⟩
  | .hbm, ⟨86, _⟩ => ⟨S1700000, .i1⟩
  | .hbm, ⟨87, _⟩ => ⟨S_, .i32⟩
  | .hbm, ⟨88, _⟩ => ⟨S1700000, .i32⟩
  | .hbm, ⟨89, _⟩ => ⟨S1700000, .i32⟩
  | .hbm, ⟨90, _⟩ => ⟨S1700000, .i32⟩
  | .hbm, ⟨91, _⟩ => ⟨S1700000x1, .i32⟩
  | .hbm, ⟨92, _⟩ => ⟨S1700000, .f32⟩
  | .hbm, ⟨93, _⟩ => ⟨S_, .i32⟩
  | .hbm, ⟨94, _⟩ => ⟨S1700000, .i32⟩
  | .hbm, ⟨95, _⟩ => ⟨S1700000, .i1⟩
  | .hbm, ⟨96, _⟩ => ⟨S_, .i32⟩
  | .hbm, ⟨97, _⟩ => ⟨S1700000, .i32⟩
  | .hbm, ⟨98, _⟩ => ⟨S1700000, .i32⟩
  | .hbm, ⟨99, _⟩ => ⟨S1700000, .i32⟩
  | .hbm, ⟨100, _⟩ => ⟨S1700000x1, .i32⟩
  | .hbm, ⟨101, _⟩ => ⟨S1700000, .f32⟩
  | .hbm, ⟨102, _⟩ => ⟨S1700000, .f32⟩
  | .hbm, ⟨103, _⟩ => ⟨S_, .i32⟩
  | .hbm, ⟨104, _⟩ => ⟨S1700000, .i32⟩
  | .hbm, ⟨105, _⟩ => ⟨S1700000, .i1⟩
  | .hbm, ⟨106, _⟩ => ⟨S_, .i32⟩
  | .hbm, ⟨107, _⟩ => ⟨S1700000, .i32⟩
  | .hbm, ⟨108, _⟩ => ⟨S1700000, .i32⟩
  | .hbm, ⟨109, _⟩ => ⟨S1700000, .i32⟩
  | .hbm, ⟨110, _⟩ => ⟨S1700000x1, .i32⟩
  | .hbm, ⟨111, _⟩ => ⟨S1700000x128, .f32⟩
  | .hbm, ⟨112, _⟩ => ⟨S1700000x1, .f32⟩
  | .hbm, ⟨113, _⟩ => ⟨S1700000x128, .f32⟩
  | .hbm, ⟨114, _⟩ => ⟨S1700000x128, .f32⟩
  | .hbm, ⟨115, _⟩ => ⟨S_, .f32⟩
  | .hbm, ⟨116, _⟩ => ⟨S100000x128, .f32⟩
  | .hbm, ⟨117, _⟩ => ⟨S1700000x1, .i32⟩
  | .hbm, ⟨118, _⟩ => ⟨S100000x128, .f32⟩
  | .hbm, ⟨119, _⟩ => ⟨S1x128, .f32⟩
  | .hbm, ⟨120, _⟩ => ⟨S100000x128, .f32⟩
  | .hbm, ⟨121, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.HostValues.lean ====
/-
  The kernel program's host side, read as values.

  Between its four kernel calls the program does on the host what the reference does: from the edge array it builds the
  source and destination words of every edge and self-loop and the edge weight 1/sqrt(deg src · deg dst) (once, before the
  first call), and after each dense call it gathers the contracted rows along the sources, scales them by the edge weights
  and sums them into the destinations (`aggregate`), and reshapes the layer's bias to a row. Here each of those buffers,
  at the segment boundary where a kernel call or the next stretch reads it, is written as that function of the buffers the
  stretch started from; the three values the first stretches build are the reference's own stages of the edge array.
-/
import proofs.«170871_j63780264345731_1_alg».proof.Proof.Gen.KernelIdeal.Frame
import proofs.«170871_j63780264345731_1_alg».proof.Proof.RefReadP
import Idealize.ShloMosaic.Lib.StableHlo.Run

set_option maxRecDepth 16384

noncomputable section

namespace Cert.KernelIdeal.HostValues

open Cert.KernelIdeal Cert.KernelIdeal.Gen
open Idealize.ShloMosaic Idealize.ShloMosaic.TcCoe Idealize.SL.Sem Idealize.ShloMosaic.StableHlo

variable {F : FTy → Type} [FloatOps F]

/-! ## The two functions the later stretches compute -/

/-- A layer's aggregation: row `s e` of the contracted features `h` (a negative word first moved up by the node count),
    scaled by the edge weight `n e`, summed over the edges `e` into row `d e` of a zero array. -/
def aggregate (s d : (⟨S1700000, .i32⟩ : BufTy).Contents (Elt F)) (n : (⟨S1700000, .f32⟩ : BufTy).Contents (Elt F))
    (h : (⟨S100000x128, .f32⟩ : BufTy).Contents (Elt F)) : (⟨S100000x128, .f32⟩ : BufTy).Contents (Elt F) :=
  Host.scatterAdd scatter_S100000x128_S1700000x1_S1700000x128_1_0_0_1
    (broadcastInDim S100000x128 ![] bcast_S_S100000x128 (constant (F := F) S_ .f32 0x00000000#32))
    (broadcastInDim S1700000x1 ![0] bcast_S1700000_S1700000x1_0 d)
    (mulf
      (Host.gather gather_S100000x128_S1700000x1_S1700000x128_1_0_n_n_0_1_1128 h
        (broadcastInDim S1700000x1 ![0] bcast_S1700000_S1700000x1_0
          (select (cmpi CmpIPredicate.slt s (broadcastInDim S1700000 ![] bcast_S_S1700000 (constantI S_ 32 0#32 : (⟨S_, .i32⟩ : BufTy).Contents (Elt F))))
            (addi s (broadcastInDim S1700000 ![] bcast_S_S1700000 (constantI S_ 32 100000#32 : (⟨S_, .i32⟩ : BufTy).Contents (Elt F)))) s)))
      (broadcastInDim S1700000x128 ![0, 1] bcast_S1700000x1_S1700000x128_0_1
        (broadcastInDim S1700000x1 ![0] bcast_S1700000_S1700000x1_0 n)))

/-- A bias vector as the one-row array a bias call stages. -/
def biasRow (b : (⟨S128, .f32⟩ : BufTy).Contents (Elt F)) : (⟨S1x128, .f32⟩ : BufTy).Contents (Elt F) :=
  fun i => shapeCast S1x128 b shapeCasts_S128_S1x128 i

variable (m : (ℓ : Loc nD τ sig) → Buf (Elt F) ℓ) (ρ : Dev nD → PrngReg)

/-! ## The stretch before each bias call -/

/-- Before the first bias call: the aggregated array, from what the first dense call and the first stretches left. -/
theorem aggregated1 (c : Dev nD) :
    W5 m ρ c (Proc.devRef .tc main_v43)
      = aggregate (W4 m ρ c (Proc.devRef .tc main_v3)) (W4 m ρ c (Proc.devRef .tc main_v6))
          (W4 m ρ c (Proc.devRef .tc main_v29)) (W4 m ρ c (Proc.devRef .tc main_v30)) := by
  show StableHlo.after hostOps1 (W4 m ρ c) (Proc.devRef .tc main_v43) = _
  after_results_simp
  rfl

/-- Before the first bias call: the first layer's bias as a row. -/
theorem biasRow1 (c : Dev nD) :
    W5 m ρ c (Proc.devRef .tc main_v44) = biasRow (W4 m ρ c (Proc.devRef .tc main_arg3)) := by
  show StableHlo.after hostOps1 (W4 m ρ c) (Proc.devRef .tc main_v44) = _
  after_results_simp
  rfl

/-- Before the second bias call: the aggregated array, from what the second dense call left. -/
theorem aggregated2 (c : Dev nD) :
    W8 m ρ c (Proc.devRef .tc main_v59)
      = aggregate (W7 m ρ c (Proc.devRef .tc main_v3)) (W7 m ρ c (Proc.devRef .tc main_v6))
          (W7 m ρ c (Proc.devRef .tc main_v29)) (W7 m ρ c (Proc.devRef .tc main_v46)) := by
  show StableHlo.after hostOps3 (W7 m ρ c) (Proc.devRef .tc main_v59) = _
  after_results_simp
  rfl

/-- Before the second bias call: the second layer's bias as a row. -/
theorem biasRow2 (c : Dev nD) :
    W8 m ρ c (Proc.devRef .tc main_v60) = biasRow (W7 m ρ c (Proc.devRef .tc main_arg5)) := by
  show StableHlo.after hostOps3 (W7 m ρ c) (Proc.devRef .tc main_v60) = _
  after_results_simp
  rfl

/-! ## A buffer no later segment writes keeps what the first stretches left in it -/

/-- The stretch before the first bias call writes none of the buffers the first stretches built, nor an argument. -/
theorem keep_hostOps1 (c : Dev nD) (V : Valuation τ sig (Elt F)) (r : Ref sig .tc)
    (hr : r = main_v3 ∨ r = main_v6 ∨ r = main_v29 ∨ r = main_arg4 ∨ r = main_arg5) :
    StableHlo.after hostOps1 V (Proc.devRef .tc r) = V (Proc.devRef .tc r) := by
  rcases hr with rfl | rfl | rfl | rfl | rfl <;>
  exact StableHlo.after_of_forall_not_mem _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide)))

/-- The buffers the first stretches built, at the first bias call's entry, are as at the first dense call's entry. -/
theorem W4_keep (c : Dev nD) (r : Ref sig .tc) (hr : r = main_v3 ∨ r = main_v6 ∨ r = main_v29) :
    W4 m ρ c (Proc.devRef .tc r) = W3 m ρ c (Proc.devRef .tc r) := by
  rcases hr with rfl | rfl | rfl <;> exact W4_of_ne m ρ c _ (by decide)

/-- … and at the second dense call's exit (the second bias call's stretch reads them there). -/
theorem W7_keep (c : Dev nD) (r : Ref sig .tc) (hr : r = main_v3 ∨ r = main_v6 ∨ r = main_v29) :
    W7 m ρ c (Proc.devRef .tc r) = W3 m ρ c (Proc.devRef .tc r) := by
  have h7 : W7 m ρ c (Proc.devRef .tc r) = W6 m ρ c (Proc.devRef .tc r) := by
    rcases hr with rfl | rfl | rfl <;> exact W7_of_ne m ρ c _ (by decide)
  have h6 : W6 m ρ c (Proc.devRef .tc r) = W5 m ρ c (Proc.devRef .tc r) := by
    rcases hr with rfl | rfl | rfl <;> exact W6_of_ne m ρ c _ (by decide)
  have h5 : W5 m ρ c (Proc.devRef .tc r) = W4 m ρ c (Proc.devRef .tc r) :=
    keep_hostOps1 c (W4 m ρ c) r (by rcases hr with h | h | h <;> simp [h])
  exact h7.trans (h6.trans (h5.trans (W4_keep m ρ c r hr)))

end Cert.KernelIdeal.HostValues

end
-- ==== Proof.Prelude.lean ====
/-
  What the first stretches of the kernel program build from the edge array, as the reference's own stages.

  Both programs start alike: the edge array's two rows, each followed by the node numbers 0 … 99999 (the self-loops), are
  the source words and the destination words; the degree of a node is the count of destination words equal to it, summed
  as ones into a zero vector; its inverse square root where the degree is positive and zero elsewhere, read at an edge's
  source and at its destination (a negative word first moved up by the node count), multiplies to the edge's weight. The
  kernel program computes this once and the reference once per layer; here the three buffers the kernel program leaves —
  source words, destination words, edge weights — are the reference's first-layer stages of the same edge array.
-/
import proofs.«170871_j63780264345731_1_alg».proof.Proof.Gen.KernelIdeal.Frame
import proofs.«170871_j63780264345731_1_alg».proof.Proof.RefReadP
import Idealize.ShloMosaic.Lib.StableHlo.Run

set_option maxRecDepth 16384

noncomputable section

namespace Cert.KernelIdeal.Prelude

open Cert.KernelIdeal Cert.KernelIdeal.Gen
open Idealize.ShloMosaic Idealize.ShloMosaic.TcCoe Idealize.SL.Sem Idealize.ShloMosaic.StableHlo

variable {F : FTy → Type} [FloatOps F]

/-- Reads the operands of a concatenate: an operation's result is its function's value at the buffer it writes and what
    was there at every other buffer. -/
local macro "finish_results" : tactic =>
  `(tactic| repeat (first
      | rw [nullary_result] | rw [unary_result] | rw [binary_result] | rw [reshape_result]
      | (rw [nullary_result_ne]; rotate_left; decide)
      | (rw [unary_result_ne]; rotate_left; decide)
      | (rw [binary_result_ne]; rotate_left; decide)
      | (rw [reshape_result_ne]; rotate_left; decide)))

variable (m : (ℓ : Loc nD τ sig) → Buf (Elt F) ℓ) (ρ : Dev nD → PrngReg)

/-! ## The three buffers the first stretches build -/

/-- The source words: row 0 of the edge array, then the node numbers. -/
theorem src_words (c : Dev nD) :
    W3 m ρ c (Proc.devRef .tc main_v3) = Cert.ReferenceIdeal.ReadP.val_main_v3 (F := F) (m ((c : Thread nD τ).loc main_arg1)) := by
  show StableHlo.after hostOps0_2 (StableHlo.after hostOps0_1 (StableHlo.after hostOps0 (W0 m ρ c))) (Proc.devRef .tc main_v3) = _
  after_results_simp
  finish_results
  rfl

/-- The destination words: row 1 of the edge array, then the node numbers. -/
theorem dst_words (c : Dev nD) :
    W3 m ρ c (Proc.devRef .tc main_v6) = Cert.ReferenceIdeal.ReadP.val_main_v6 (F := F) (m ((c : Thread nD τ).loc main_arg1)) := by
  show StableHlo.after hostOps0_2 (StableHlo.after hostOps0_1 (StableHlo.after hostOps0 (W0 m ρ c))) (Proc.devRef .tc main_v6) = _
  after_results_simp
  finish_results
  rfl

set_option maxHeartbeats 4000000 in
/-- The edge weights: the inverse square roots of the source's and the destination's degree, multiplied. -/
theorem edge_weights (c : Dev nD) :
    W3 m ρ c (Proc.devRef .tc main_v29) = Cert.ReferenceIdeal.ReadP.val_main_v30 (F := F) (m ((c : Thread nD τ).loc main_arg1)) := by
  show StableHlo.after hostOps0_2 (StableHlo.after hostOps0_1 (StableHlo.after hostOps0 (W0 m ρ c))) (Proc.devRef .tc main_v29) = _
  after_results_simp
  finish_results
  simp only [TRef.ofBuf, TRef.toBuf, cast_eq]
  rfl

/-! ## The arguments at the first dense call's entry -/

/-- Argument 0 is as launched when the first dense call is entered: no operation of the first stretches writes it. -/
theorem entry_arg0 (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results_simp

/-- Argument 2 is as launched when the first dense call is entered: no operation of the first stretches writes it. -/
theorem entry_arg2 (c : Dev nD) : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results_simp

/-- Argument 3 is as launched when the first dense call is entered: no operation of the first stretches writes it. -/
theorem entry_arg3 (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results_simp

/-- Argument 4 is as launched when the first dense call is entered: no operation of the first stretches writes it. -/
theorem entry_arg4 (c : Dev nD) : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results_simp

/-- Argument 5 is as launched when the first dense call is entered: no operation of the first stretches writes it. -/
theorem entry_arg5 (c : Dev nD) : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results_simp

end Cert.KernelIdeal.Prelude

end
-- ==== Proof.LibPlainDot.lean ====
/-
  A plain two-dimensional contraction read at one element over the extended reals.

  For the dimension numbers of an [M, K] by [K, N] product (the left operand's axis 1 contracted against the right
  operand's axis 0, no batch axis), entry (p, q) of the product is the sum over k of lhs (p, k) · rhs (k, q). This holds
  of a kernel's matrix product into a zero accumulator and of the host's dot_general alike, whatever the precision
  attribute: at the extended reals both are the textbook contraction. Generic in the three extents.
-/
import Idealize.ShloMosaic.PureOps.Ideal.Laws
import Idealize.ShloMosaic.Lib.ValueIdx

noncomputable section

namespace Cert.Lib.PlainDot

open Idealize.ShloMosaic Idealize.ShloMosaic.ValueIdx

variable (M K N : Nat)

/-- Axis 0 of the left operand is free: it reads the output's row coordinate. -/
theorem lhs_axis0 (i : (⟨2, ![M, N]⟩ : Shape).Idx) (r : (DotDims.plain M K N).contr.Idx) :
    ((DotDims.plain M K N).lhsIdx i r 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Axis 1 of the left operand is the contracted one: it reads the contraction position. -/
theorem lhs_axis1 (i : (⟨2, ![M, N]⟩ : Shape).Idx) (r : (DotDims.plain M K N).contr.Idx) :
    ((DotDims.plain M K N).lhsIdx i r 1).val = (r ⟨0, Nat.one_pos⟩).val :=
  (DotDims.plain M K N).lhsIdx_val_of_single rfl i r

/-- Axis 0 of the right operand is the contracted one. -/
theorem rhs_axis0 (i : (⟨2, ![M, N]⟩ : Shape).Idx) (r : (DotDims.plain M K N).contr.Idx) :
    ((DotDims.plain M K N).rhsIdx i r 0).val = (r ⟨0, Nat.one_pos⟩).val :=
  (DotDims.plain M K N).rhsIdx_val_of_single rfl i r

/-- Axis 1 of the right operand is free: it reads the output's column coordinate. -/
theorem rhs_axis1 (i : (⟨2, ![M, N]⟩ : Shape).Idx) (r : (DotDims.plain M K N).contr.Idx) :
    ((DotDims.plain M K N).rhsIdx i r 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction's sum over its one-axis index shape, re-indexed by that axis' coordinate: the sum over
    `k : Fin K` of lhs (p, k) · rhs (k, q). -/
theorem sum_eq (lhs : (⟨2, ![M, K]⟩ : Shape).Idx → EReal) (rhs : (⟨2, ![K, N]⟩ : Shape).Idx → EReal)
    (p : Fin M) (q : Fin N) :
    (∑ r : (DotDims.plain M K N).contr.Idx,
        lhs ((DotDims.plain M K N).lhsIdx (ix2 p q) r) * rhs ((DotDims.plain M K N).rhsIdx (ix2 p q) r))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_axis0 M K N _ _
      | ⟨1, _⟩ => exact (lhs_axis1 M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_axis0 M K N _ _).trans hk
      | ⟨1, _⟩ => exact rhs_axis1 M K N _ _)
  rw [el, er]

/-- A kernel's matrix product into the zero accumulator, at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact sum_eq M K N lhs rhs p q

/-- The host's dot_general, at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_eq M K N lhs rhs p q

end Cert.Lib.PlainDot

end
-- ==== Proof.Layer.lean ====
/-
  The three whole-array functions a layer's two kernel calls compute, over the extended reals.

  A graph-convolution layer here is: a dense contraction of the node features with a weight matrix; a gather of the
  contracted rows along the edges, scaled and summed back into the destination nodes (done by the host on both sides, and
  carried as one shared function); then the bias row added to every node's row, in the first layer followed by the ramp
  against zero. The contraction and the bias step are what the kernel computes block by block and the reference in one
  host operation each: `dense`, `biasRows`, `biasRowsRamp` name them as functions of whole arrays.
-/
import Idealize.ShloMosaic.PureOps.Ideal.Laws
import Idealize.ShloMosaic.Lib.ValueIdx
import proofs.«170871_j63780264345731_1_alg».proof.Proof.LibPlainDot

noncomputable section

namespace Cert.Layer

open Idealize.ShloMosaic Idealize.ShloMosaic.ValueIdx

/-- Node features, one row of 128 per node. -/
abbrev Nodes : Shape := ⟨2, ![100000, 128]⟩
/-- A weight matrix. -/
abbrev Weights : Shape := ⟨2, ![128, 128]⟩
/-- A bias, as one row. -/
abbrev BiasRow : Shape := ⟨2, ![1, 128]⟩

/-- The dense step: entry (n, q) is the sum over k of x (n, k) · w (k, q) — the host's contraction of axis 1 of the
    features against axis 0 of the weights. -/
abbrev dense (x : FVec Ideal Nodes .f32) (w : FVec Ideal Weights .f32) : FVec Ideal Nodes .f32 :=
  Host.dotGeneral (DotDims.plain 100000 128 128) none x w

theorem dense_apply (x : FVec Ideal Nodes .f32) (w : FVec Ideal Weights .f32) (n : Fin 100000) (q : Fin 128) :
    dense x w (ix2 n q) = ∑ k : Fin 128, x (ix2 n k) * w (ix2 k q) :=
  Cert.Lib.PlainDot.dotGeneral_apply 100000 128 128 none .single x w n q

/-- The bias step: the bias row added to every node's row. -/
def biasRows (x : FVec Ideal Nodes .f32) (b : FVec Ideal BiasRow .f32) : FVec Ideal Nodes .f32 :=
  fun i => FloatOps.addf (x i) (b (ix2 (0 : Fin 1) (⟨(i 1).val, (i 1).isLt⟩ : Fin 128)))

/-- The bias step followed by the ramp: the larger of the biased entry and zero. -/
def biasRowsRamp (x : FVec Ideal Nodes .f32) (b : FVec Ideal BiasRow .f32) : FVec Ideal Nodes .f32 :=
  fun i => FloatOps.maximumf (biasRows x b i) (Scalar.ofBits (F := Ideal) .f32 0x00000000#32)

theorem biasRows_apply (x : FVec Ideal Nodes .f32) (b : FVec Ideal BiasRow .f32) (n : Fin 100000) (q : Fin 128) :
    biasRows x b (ix2 n q) = FloatOps.addf (x (ix2 n q)) (b (ix2 (0 : Fin 1) q)) := rfl

theorem biasRowsRamp_apply (x : FVec Ideal Nodes .f32) (b : FVec Ideal BiasRow .f32) (n : Fin 100000) (q : Fin 128) :
    biasRowsRamp x b (ix2 n q)
      = FloatOps.maximumf (FloatOps.addf (x (ix2 n q)) (b (ix2 (0 : Fin 1) q))) (Scalar.ofBits (F := Ideal) .f32 0x00000000#32) := rfl

end Cert.Layer

end
-- ==== Proof.RegionDense.lean ====
/-
  The two dense calls, as whole arrays. Each runs ten grid points; point t contracts rows 10000·t … 10000·t + 9999 of the
  feature array with the whole weight matrix (its values first narrowed to bf16, which at the extended reals changes
  nothing) into a zero accumulator, and writes the block back over the same rows of the output. The ten blocks tile the
  output, so after the call it holds the contraction of the whole feature array with the weights.
-/
import proofs.«170871_j63780264345731_1_alg».proof.Proof.Gen.KernelIdeal.Frame
import proofs.«170871_j63780264345731_1_alg».proof.Proof.Layer
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionDense

open Cert.KernelIdeal Cert.KernelIdeal.Gen
open Idealize.ShloMosaic Idealize.ShloMosaic.TcCoe Idealize.ShloMosaic.ValueIdx Idealize.SL.Sem
open Idealize.ShloMosaic.Pipeline (Dat Cfg Window)

-- The TensorCore's buffer contents when a region is entered, at the extended reals: every statement below is generic in it.
variable (V : (c : Dev nD) → (b : Ref sig .tc) → Buf (Elt Ideal) ((c : Thread nD τ).loc b))

/-! ## Shared by both calls -/

/-- The zero offsets of a whole-block access, as a constant function. -/
theorem zeros : (![0, 0] : Fin 2 → Nat) = fun _ => 0 := funext fun a => by fin_cases a <;> rfl

/-- A row of a block against a column of the weights is an entry of the whole contraction: if row p of the block x is
    row n of the features X, and column q of the block w is column q of the weights W, then the sum over k of
    x (p, k) · w (k, q) is entry (n, q) of the contraction of X with W. -/
theorem sum_eq_dense (X : FVec Ideal Cert.Layer.Nodes .f32) (W : FVec Ideal Cert.Layer.Weights .f32)
    (x : Vec Ideal S10000x128 .f32) (w : Vec Ideal S128x128 .f32) (p : Fin 10000) (q : Fin 128) (n : Fin 100000)
    (hx : ∀ k : Fin 128, x (ix2 p k) = X (ix2 n k)) (hw : ∀ k : Fin 128, w (ix2 k q) = W (ix2 k q)) :
    ∑ k : Fin 128, x (ix2 p k) * w (ix2 k q) = Cert.Layer.dense X W (ix2 n q) := by
  rw [Cert.Layer.dense_apply]
  exact Finset.sum_congr rfl fun k _ => by rw [hx k, hw k]

/-! ## The first dense call -/

/-- Entry (p, q) of what the body stores from a feature block x and a weight block w: the sum over k of
    x (p, k) · w (k, q). Narrowing to bf16 is the identity at the extended reals, and the accumulator starts at zero. -/
theorem stored0_apply (x : Vec Ideal S10000x128 .f32) (w : Vec Ideal S128x128 .f32) (p : Fin 10000) (q : Fin 128) :
    k0_pay1 x w (ix2 p q) = ∑ k : Fin 128, x (ix2 p k) * w (ix2 k q) := by
  unfold k0_pay1
  exact Cert.Lib.PlainDot.matmul_zero_apply 10000 128 128 none _ _ p q

/-- The block indices, decided over the ten points: at point t the feature block and the output block are block (t, 0)
    of their arrays, and the weight block is block (0, 0), the whole matrix. -/
theorem blocks0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of the feature block at point t is row 10000·t + p of the feature array. -/
theorem features0_apply (c : Dev nD) (t : Fin cfg0.N) (p : Fin 10000) (k : Fin 128) (n : Fin 100000)
    (hn : n.val = t.val * 10000 + 1 * p.val) :
    (iblk0 V c 0 t : Vec Ideal S10000x128 .f32) (ix2 p k)
      = (V c main_arg0 : S100000x128.Idx → Elt Ideal .f32) (ix2 n k) := by
  obtain ⟨e0, e1, -⟩ := blocks0 t
  unfold iblk0
  rw [View.read_apply]
  show V c main_arg0 _ = V c main_arg0 _
  congr 1
  funext a
  apply Fin.ext
  match a with
  | ⟨0, _⟩ => show win0_0.index t 0 * 10000 + 1 * p.val = n.val; rw [e0, hn]
  | ⟨1, _⟩ => show win0_0.index t 1 * 128 + 1 * k.val = k.val; rw [e1]; omega

/-- The weight block at every point is the weight matrix. -/
theorem weights0_apply (c : Dev nD) (t : Fin cfg0.N) (k q : Fin 128) :
    (iblk0 V c 1 t : Vec Ideal S128x128 .f32) (ix2 k q)
      = (V c main_arg2 : S128x128.Idx → Elt Ideal .f32) (ix2 k q) := by
  obtain ⟨-, -, e2, e3, -⟩ := blocks0 t
  unfold iblk0
  rw [View.read_apply]
  show V c main_arg2 _ = V c main_arg2 _
  congr 1
  funext a
  apply Fin.ext
  match a with
  | ⟨0, _⟩ => show win0_1.index t 0 * 128 + 1 * k.val = k.val; rw [e2]; omega
  | ⟨1, _⟩ => show win0_1.index t 1 * 128 + 1 * q.val = q.val; rw [e3]; omega

/-- What point t writes back is block t of the contraction of the whole arrays: entry (p, q) of the stored block is
    the sum over k of features (10000·t + p, k) · weights (k, q), which is entry (10000·t + p, q) of the contraction. -/
theorem written0_eq (c : Dev nD) (t : Fin cfg0.N) :
    (dat0 (F := Ideal) V c).flushed 2 t
      = ((cfg0.win 2).blk t).view.read (Elt Ideal) (Cert.Layer.dense (V c main_arg0) (V c main_arg2)) := by
  show (cfg0.win 2).cut (grid0.coords t) ((dat0 V c).after 2 t) = _
  rw [after0_2]
  unfold out0_2
  rw [View.canon_unit_zero zeros]
  simp only [View.ld_unit_zero (S := S10000x128) zeros, View.ld_unit_zero (S := S128x128) zeros]
  funext j
  obtain ⟨p, q, rfl⟩ : ∃ (p : Fin 10000) (q : Fin 128), j = ix2 p q := ⟨j 0, j 1, eq_ix2 j⟩
  obtain ⟨-, -, -, -, e4, e5⟩ := blocks0 t
  have hp : p.val < 10000 := p.isLt
  have ht : t.val < 10 := lt_of_lt_of_eq t.isLt N_0
  refine ((stored0_apply (iblk0 V c 0 t) (iblk0 V c 1 t) p q).trans
    (sum_eq_dense (V c main_arg0) (V c main_arg2) (iblk0 V c 0 t) (iblk0 V c 1 t) p q ⟨t.val * 10000 + 1 * p.val, by omega⟩
      (fun k => features0_apply V c t p k _ rfl) (fun k => weights0_apply V c t k q))).trans ?_
  rw [View.read_apply]
  show Cert.Layer.dense (V c main_arg0) (V c main_arg2) _ = Cert.Layer.dense (V c main_arg0) (V c main_arg2) _
  congr 1
  funext a
  apply Fin.ext
  match a with
  | ⟨0, _⟩ => show t.val * 10000 + 1 * p.val = win0_2.index t 0 * 10000 + 1 * p.val; rw [e4]
  | ⟨1, _⟩ => show q.val = win0_2.index t 1 * 128 + 1 * q.val; rw [e5]; omega

/-- An index of the output array is in point t's block iff each coordinate is in the block's range on its axis. -/
theorem mem_rows0 (t : Fin cfg0.N) (i : S100000x128.Idx) :
    i ∈ ((cfg0.win 2).blk t).view.set
      ↔ ∀ a : Fin 2, win0_2.index t a * S10000x128.size a ≤ (i a).val
          ∧ (i a).val < win0_2.index t a * S10000x128.size a + S10000x128.size a := by
  show i ∈ ((View.whole main_v30).slice (win0_2.rect t)).set ↔ _
  rw [View.set_slice_whole, Rect.mem_set_unit]
  exact Iff.rfl

/-- The ten row blocks cover the output array: row n lies in the block of point n / 10000. -/
theorem rows_cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ : ∃ t : Fin cfg0.N, t.val = (i 0).val / 10000 :=
    ⟨⟨(i 0).val / 10000, lt_of_lt_of_eq (show (i 0).val / 10000 < 10 by omega) N_0.symm⟩, rfl⟩
  obtain ⟨-, -, -, -, e4, e5⟩ := blocks0 t
  refine ⟨t, flush0_2 t, ?_⟩
  rw [mem_rows0]
  intro a
  match a with
  | ⟨0, _⟩ =>
    show win0_2.index t 0 * 10000 ≤ (i 0).val ∧ (i 0).val < win0_2.index t 0 * 10000 + 10000
    rw [e4, ht]; omega
  | ⟨1, _⟩ =>
    show win0_2.index t 1 * 128 ≤ (i 1).val ∧ (i 1).val < win0_2.index t 1 * 128 + 128
    rw [e5]; omega

/-- After the first dense call its output array is the contraction of the call's feature array with its weight matrix. -/
theorem region0 (c : Dev nD) :
    (dat0 (F := Ideal) V c).arrAt 2 cfg0.N = Cert.Layer.dense (V c main_arg0) (V c main_arg2) :=
  (dat0 V c).arrAt_eq_of_cover 2 (Cert.Layer.dense (V c main_arg0) (V c main_arg2))
    (fun t _ => written0_eq V c t) rows_cover0

/-! ## The second dense call -/

/-- Entry (p, q) of what the body stores from a feature block x and a weight block w: the sum over k of
    x (p, k) · w (k, q). The cast to the same shape is the identity, narrowing to bf16 is the identity at the extended reals, and the accumulator starts at zero. -/
theorem stored2_apply (x : Vec Ideal S10000x128 .f32) (w : Vec Ideal S128x128 .f32) (p : Fin 10000) (q : Fin 128) :
    k2_pay1 x w (ix2 p q) = ∑ k : Fin 128, x (ix2 p k) * w (ix2 k q) := by
  unfold k2_pay1
  refine (Cert.Lib.PlainDot.matmul_zero_apply 10000 128 128 none _ _ p q).trans ?_
  refine Finset.sum_congr rfl fun k _ => ?_
  exact congrArg (· * w (ix2 k q)) (congrFun (shapeCast_self x shapeCasts_S10000x128_S10000x128) (ix2 p k))

/-- The block indices, decided over the ten points: at point t the feature block and the output block are block (t, 0)
    of their arrays, and the weight block is block (0, 0), the whole matrix. -/
theorem blocks2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row p of the feature block at point t is row 10000·t + p of the feature array. -/
theorem features2_apply (c : Dev nD) (t : Fin cfg2.N) (p : Fin 10000) (k : Fin 128) (n : Fin 100000)
    (hn : n.val = t.val * 10000 + 1 * p.val) :
    (iblk2 V c 0 t : Vec Ideal S10000x128 .f32) (ix2 p k)
      = (V c main_v45 : S100000x128.Idx → Elt Ideal .f32) (ix2 n k) := by
  obtain ⟨e0, e1, -⟩ := blocks2 t
  unfold iblk2
  rw [View.read_apply]
  show V c main_v45 _ = V c main_v45 _
  congr 1
  funext a
  apply Fin.ext
  match a with
  | ⟨0, _⟩ => show win2_0.index t 0 * 10000 + 1 * p.val = n.val; rw [e0, hn]
  | ⟨1, _⟩ => show win2_0.index t 1 * 128 + 1 * k.val = k.val; rw [e1]; omega

/-- The weight block at every point is the weight matrix. -/
theorem weights2_apply (c : Dev nD) (t : Fin cfg2.N) (k q : Fin 128) :
    (iblk2 V c 1 t : Vec Ideal S128x128 .f32) (ix2 k q)
      = (V c main_arg4 : S128x128.Idx → Elt Ideal .f32) (ix2 k q) := by
  obtain ⟨-, -, e2, e3, -⟩ := blocks2 t
  unfold iblk2
  rw [View.read_apply]
  show V c main_arg4 _ = V c main_arg4 _
  congr 1
  funext a
  apply Fin.ext
  match a with
  | ⟨0, _⟩ => show win2_1.index t 0 * 128 + 1 * k.val = k.val; rw [e2]; omega
  | ⟨1, _⟩ => show win2_1.index t 1 * 128 + 1 * q.val = q.val; rw [e3]; omega

/-- What point t writes back is block t of the contraction of the whole arrays: entry (p, q) of the stored block is
    the sum over k of features (10000·t + p, k) · weights (k, q), which is entry (10000·t + p, q) of the contraction. -/
theorem written2_eq (c : Dev nD) (t : Fin cfg2.N) :
    (dat2 (F := Ideal) V c).flushed 2 t
      = ((cfg2.win 2).blk t).view.read (Elt Ideal) (Cert.Layer.dense (V c main_v45) (V c main_arg4)) := by
  show (cfg2.win 2).cut (grid2.coords t) ((dat2 V c).after 2 t) = _
  rw [after2_2]
  unfold out2_2
  rw [View.canon_unit_zero zeros]
  simp only [View.ld_unit_zero (S := S10000x128) zeros, View.ld_unit_zero (S := S128x128) zeros]
  funext j
  obtain ⟨p, q, rfl⟩ : ∃ (p : Fin 10000) (q : Fin 128), j = ix2 p q := ⟨j 0, j 1, eq_ix2 j⟩
  obtain ⟨-, -, -, -, e4, e5⟩ := blocks2 t
  have hp : p.val < 10000 := p.isLt
  have ht : t.val < 10 := lt_of_lt_of_eq t.isLt N_2
  refine ((stored2_apply (iblk2 V c 0 t) (iblk2 V c 1 t) p q).trans
    (sum_eq_dense (V c main_v45) (V c main_arg4) (iblk2 V c 0 t) (iblk2 V c 1 t) p q ⟨t.val * 10000 + 1 * p.val, by omega⟩
      (fun k => features2_apply V c t p k _ rfl) (fun k => weights2_apply V c t k q))).trans ?_
  rw [View.read_apply]
  show Cert.Layer.dense (V c main_v45) (V c main_arg4) _ = Cert.Layer.dense (V c main_v45) (V c main_arg4) _
  congr 1
  funext a
  apply Fin.ext
  match a with
  | ⟨0, _⟩ => show t.val * 10000 + 1 * p.val = win2_2.index t 0 * 10000 + 1 * p.val; rw [e4]
  | ⟨1, _⟩ => show q.val = win2_2.index t 1 * 128 + 1 * q.val; rw [e5]; omega

/-- An index of the output array is in point t's block iff each coordinate is in the block's range on its axis. -/
theorem mem_rows2 (t : Fin cfg2.N) (i : S100000x128.Idx) :
    i ∈ ((cfg2.win 2).blk t).view.set
      ↔ ∀ a : Fin 2, win2_2.index t a * S10000x128.size a ≤ (i a).val
          ∧ (i a).val < win2_2.index t a * S10000x128.size a + S10000x128.size a := by
  show i ∈ ((View.whole main_v46).slice (win2_2.rect t)).set ↔ _
  rw [View.set_slice_whole, Rect.mem_set_unit]
  exact Iff.rfl

/-- The ten row blocks cover the output array: row n lies in the block of point n / 10000. -/
theorem rows_cover2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ : ∃ t : Fin cfg2.N, t.val = (i 0).val / 10000 :=
    ⟨⟨(i 0).val / 10000, lt_of_lt_of_eq (show (i 0).val / 10000 < 10 by omega) N_2.symm⟩, rfl⟩
  obtain ⟨-, -, -, -, e4, e5⟩ := blocks2 t
  refine ⟨t, flush2_2 t, ?_⟩
  rw [mem_rows2]
  intro a
  match a with
  | ⟨0, _⟩ =>
    show win2_2.index t 0 * 10000 ≤ (i 0).val ∧ (i 0).val < win2_2.index t 0 * 10000 + 10000
    rw [e4, ht]; omega
  | ⟨1, _⟩ =>
    show win2_2.index t 1 * 128 ≤ (i 1).val ∧ (i 1).val < win2_2.index t 1 * 128 + 128
    rw [e5]; omega

/-- The same of the second dense call, whose features are the first layer's output. -/
theorem region2 (c : Dev nD) :
    (dat2 (F := Ideal) V c).arrAt 2 cfg2.N = Cert.Layer.dense (V c main_v45) (V c main_arg4) :=
  (dat2 V c).arrAt_eq_of_cover 2 (Cert.Layer.dense (V c main_v45) (V c main_arg4))
    (fun t _ => written2_eq V c t) rows_cover2

end Cert.KernelIdeal.RegionDense

end
-- ==== Proof.RegionBias.lean ====
/-
  The two bias calls, as whole arrays. Each runs ten grid points; point t adds the bias row to rows 10000·t … 10000·t + 9999
  of the aggregated array (the first call then takes the larger of the sum and zero) and writes the block back over the
  same rows of the output. The ten blocks tile the output, so after the call it holds the bias step of the whole array.
-/
import proofs.«170871_j63780264345731_1_alg».proof.Proof.Gen.KernelIdeal.Frame
import proofs.«170871_j63780264345731_1_alg».proof.Proof.Layer
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionBias

open Cert.KernelIdeal Cert.KernelIdeal.Gen
open Idealize.ShloMosaic Idealize.ShloMosaic.TcCoe Idealize.ShloMosaic.ValueIdx Idealize.SL.Sem
open Idealize.ShloMosaic.Pipeline (Dat Cfg Window)

-- The TensorCore's buffer contents when a region is entered, at the extended reals: every statement below is generic in it.
variable (V : (c : Dev nD) → (b : Ref sig .tc) → Buf (Elt Ideal) ((c : Thread nD τ).loc b))

/-! ## Whole-buffer accesses -/

/-- The zero offsets of a whole-buffer access, as the constant function. -/
theorem zero_offsets : (![0, 0] : Fin 2 → Nat) = fun _ => 0 := funext fun a => by fin_cases a <;> rfl

/-! ## The first bias call -/

/-- The first bias body stores once, over its whole buffer: what it leaves is its payload of the two loaded buffers. -/
theorem out1_eq (x : Vec Ideal S10000x128 .f32) (b : Vec Ideal S1x128 .f32) : out1_2 x b = k1_pay1 x b := by
  unfold out1_2
  rw [View.canon_unit_zero zero_offsets]
  rw [View.ld_unit_zero (S := S10000x128) zero_offsets, View.ld_unit_zero (S := S1x128) zero_offsets]

/-- Entry (p, q) of the first bias body's payload: the larger of x (p, q) + b (0, q) and zero (both loaded buffers pass
    through a shape cast to their own shape first; the bias row is broadcast over the 10000 rows). -/
theorem pay1_apply (x : Vec Ideal S10000x128 .f32) (b : Vec Ideal S1x128 .f32) (p : Fin 10000) (q : Fin 128) :
    k1_pay1 x b (ix2 p q)
      = FloatOps.maximumf (FloatOps.addf (x (ix2 p q)) (b (ix2 (0 : Fin 1) q))) (Scalar.ofBits (F := Ideal) .f32 0x00000000#32) := by
  unfold k1_pay1
  simp only [shapeCast_self]
  exact congrArg (fun z => FloatOps.maximumf (FloatOps.addf (x (ix2 p q)) z) (Scalar.ofBits (F := Ideal) .f32 0x00000000#32))
    (broadcastTo_1b_ab_apply b broadcasts_S1x128_S10000x128 p q)

/-- The first bias call's index maps, decided over its ten points: the blocks of the aggregated array and of the output
    are at (t, 0), the bias row's at (0, 0). -/
theorem index_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- A point of the first bias call is one of ten. -/
theorem point_lt1 (t : Fin cfg1.N) : t.val < 10 := lt_of_lt_of_eq t.isLt N_1

/-- The aggregated array's block at point t is its rows 10000·t … 10000·t + 9999. -/
theorem iblk1_0_apply (c : Dev nD) (t : Fin cfg1.N) (p : Fin 10000) (q : Fin 128) (n : Fin 100000)
    (hn : n.val = 10000 * t.val + p.val) :
    (iblk1 (F := Ideal) V c 0 t : Vec Ideal S10000x128 .f32) (ix2 p q)
      = (V c main_v43 : FVec Ideal Cert.Layer.Nodes .f32) (ix2 n q) := by
  obtain ⟨e0, e1, -⟩ := index_facts1 t
  unfold iblk1
  rw [View.read_apply]
  refine congrArg (V c main_v43 : FVec Ideal Cert.Layer.Nodes .f32) (funext fun a => Fin.ext ?_)
  match a with
  | ⟨0, _⟩ => show win1_0.index t (0 : Fin 2) * 10000 + 1 * p.val = n.val; rw [e0, hn]; omega
  | ⟨1, _⟩ => show win1_0.index t (1 : Fin 2) * 128 + 1 * q.val = q.val; rw [e1]; omega

/-- The bias row's block at every point is the whole row. -/
theorem iblk1_1_apply (c : Dev nD) (t : Fin cfg1.N) (q : Fin 128) :
    (iblk1 (F := Ideal) V c 1 t : Vec Ideal S1x128 .f32) (ix2 (0 : Fin 1) q)
      = (V c main_v44 : FVec Ideal Cert.Layer.BiasRow .f32) (ix2 (0 : Fin 1) q) := by
  obtain ⟨-, -, e2, e3, -⟩ := index_facts1 t
  unfold iblk1
  rw [View.read_apply]
  refine congrArg (V c main_v44 : FVec Ideal Cert.Layer.BiasRow .f32) (funext fun a => Fin.ext ?_)
  match a with
  | ⟨0, _⟩ => show win1_1.index t (0 : Fin 2) * 1 + 1 * (0 : Fin 1).val = (0 : Fin 1).val; rw [e2]; rfl
  | ⟨1, _⟩ => show win1_1.index t (1 : Fin 2) * 128 + 1 * q.val = q.val; rw [e3]; omega

/-- The output's block at point t, read off a whole array, is the array's rows 10000·t … 10000·t + 9999. -/
theorem blk1_2_apply (c : Dev nD) (t : Fin cfg1.N) (G : FVec Ideal Cert.Layer.Nodes .f32) (p : Fin 10000) (q : Fin 128)
    (n : Fin 100000) (hn : n.val = 10000 * t.val + p.val) :
    (((cfg1.win 2).blk t).view.read (Elt Ideal) G : Vec Ideal S10000x128 .f32) (ix2 p q) = G (ix2 n q) := by
  obtain ⟨-, -, -, -, e4, e5⟩ := index_facts1 t
  rw [View.read_apply]
  refine congrArg G (funext fun a => Fin.ext ?_)
  match a with
  | ⟨0, _⟩ => show win1_2.index t (0 : Fin 2) * 10000 + 1 * p.val = n.val; rw [e4, hn]; omega
  | ⟨1, _⟩ => show win1_2.index t (1 : Fin 2) * 128 + 1 * q.val = q.val; rw [e5]; omega

/-- WHAT POINT t WRITES BACK is block t of the bias step with the ramp, of the whole arrays as the region finds them:
    entry (p, q) of the stored block is max (x (10000·t + p, q) + b (0, q)) 0. -/
theorem flushed1_eq (c : Dev nD) (t : Fin cfg1.N) :
    (dat1 (F := Ideal) V c).flushed 2 t
      = ((cfg1.win 2).blk t).view.read (Elt Ideal) (Cert.Layer.biasRowsRamp (V c main_v43) (V c main_v44)) := by
  show (cfg1.win 2).cut (grid1.coords t) ((dat1 (F := Ideal) V c).after 2 t) = _
  rw [after1_2, out1_eq]
  have entry : ∀ j : S10000x128.Idx, k1_pay1 (iblk1 (F := Ideal) V c 0 t) (iblk1 (F := Ideal) V c 1 t) j
      = (((cfg1.win 2).blk t).view.read (Elt Ideal) (Cert.Layer.biasRowsRamp (V c main_v43) (V c main_v44)) : Vec Ideal S10000x128 .f32) j := by
    intro j
    obtain ⟨p, q, rfl⟩ : ∃ (p : Fin 10000) (q : Fin 128), j = ix2 p q := ⟨j 0, j 1, eq_ix2 j⟩
    have ht := point_lt1 t
    have hp := p.isLt
    rw [pay1_apply, blk1_2_apply c t _ p q ⟨10000 * t.val + p.val, by omega⟩ rfl, Cert.Layer.biasRowsRamp_apply,
      iblk1_0_apply V c t p q ⟨10000 * t.val + p.val, by omega⟩ rfl, iblk1_1_apply V c t q]
  exact funext entry

/-- An index of the output array is in point t's block iff each coordinate is in the block's range on its axis. -/
theorem mem_blk1 (t : Fin cfg1.N) (i : S100000x128.Idx) :
    i ∈ ((cfg1.win 2).blk t).view.set
      ↔ ∀ a : Fin 2, win1_2.index t a * S10000x128.size a ≤ (i a).val ∧ (i a).val < win1_2.index t a * S10000x128.size a + S10000x128.size a := by
  show i ∈ ((View.whole main_v45).slice (win1_2.rect t)).set ↔ _
  rw [View.set_slice_whole, Rect.mem_set_unit]
  exact Iff.rfl

/-- The ten row blocks tile the output: row n is in the block of point n / 10000. -/
theorem covered1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ : ∃ t : Fin cfg1.N, t.val = (i 0).val / 10000 :=
    ⟨⟨(i 0).val / 10000, lt_of_lt_of_eq (by omega) N_1.symm⟩, rfl⟩
  obtain ⟨-, -, -, -, e4, e5⟩ := index_facts1 t
  refine ⟨t, flush1_2 t, ?_⟩
  rw [mem_blk1]
  intro a
  match a with
  | ⟨0, _⟩ =>
    show win1_2.index t (0 : Fin 2) * 10000 ≤ (i 0).val ∧ (i 0).val < win1_2.index t (0 : Fin 2) * 10000 + 10000
    rw [e4, ht]; omega
  | ⟨1, _⟩ =>
    show win1_2.index t (1 : Fin 2) * 128 ≤ (i 1).val ∧ (i 1).val < win1_2.index t (1 : Fin 2) * 128 + 128
    rw [e5]; omega

/-! ## The second bias call -/

/-- The second bias body stores once, over its whole buffer: what it leaves is its payload of the two loaded buffers. -/
theorem out3_eq (x : Vec Ideal S10000x128 .f32) (b : Vec Ideal S1x128 .f32) : out3_2 x b = k3_pay1 x b := by
  unfold out3_2
  rw [View.canon_unit_zero zero_offsets]
  rw [View.ld_unit_zero (S := S10000x128) zero_offsets, View.ld_unit_zero (S := S1x128) zero_offsets]

/-- Entry (p, q) of the second bias body's payload: x (p, q) + b (0, q) (both loaded buffers pass through a shape cast to
    their own shape first; the bias row is broadcast over the 10000 rows). -/
theorem pay3_apply (x : Vec Ideal S10000x128 .f32) (b : Vec Ideal S1x128 .f32) (p : Fin 10000) (q : Fin 128) :
    k3_pay1 x b (ix2 p q)
      = FloatOps.addf (x (ix2 p q)) (b (ix2 (0 : Fin 1) q)) := by
  unfold k3_pay1
  simp only [shapeCast_self]
  exact congrArg (fun z : Ideal FTy.f32 => (FloatOps.addf (x (ix2 p q) : Ideal FTy.f32) z : Ideal FTy.f32))
    (broadcastTo_1b_ab_apply b broadcasts_S1x128_S10000x128 p q)

/-- The second bias call's index maps, decided over its ten points: the blocks of the aggregated array and of the output
    are at (t, 0), the bias row's at (0, 0). -/
theorem index_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- A point of the second bias call is one of ten. -/
theorem point_lt3 (t : Fin cfg3.N) : t.val < 10 := lt_of_lt_of_eq t.isLt N_3

/-- The aggregated array's block at point t is its rows 10000·t … 10000·t + 9999. -/
theorem iblk3_0_apply (c : Dev nD) (t : Fin cfg3.N) (p : Fin 10000) (q : Fin 128) (n : Fin 100000)
    (hn : n.val = 10000 * t.val + p.val) :
    (iblk3 (F := Ideal) V c 0 t : Vec Ideal S10000x128 .f32) (ix2 p q)
      = (V c main_v59 : FVec Ideal Cert.Layer.Nodes .f32) (ix2 n q) := by
  obtain ⟨e0, e1, -⟩ := index_facts3 t
  unfold iblk3
  rw [View.read_apply]
  refine congrArg (V c main_v59 : FVec Ideal Cert.Layer.Nodes .f32) (funext fun a => Fin.ext ?_)
  match a with
  | ⟨0, _⟩ => show win3_0.index t (0 : Fin 2) * 10000 + 1 * p.val = n.val; rw [e0, hn]; omega
  | ⟨1, _⟩ => show win3_0.index t (1 : Fin 2) * 128 + 1 * q.val = q.val; rw [e1]; omega

/-- The bias row's block at every point is the whole row. -/
theorem iblk3_1_apply (c : Dev nD) (t : Fin cfg3.N) (q : Fin 128) :
    (iblk3 (F := Ideal) V c 1 t : Vec Ideal S1x128 .f32) (ix2 (0 : Fin 1) q)
      = (V c main_v60 : FVec Ideal Cert.Layer.BiasRow .f32) (ix2 (0 : Fin 1) q) := by
  obtain ⟨-, -, e2, e3, -⟩ := index_facts3 t
  unfold iblk3
  rw [View.read_apply]
  refine congrArg (V c main_v60 : FVec Ideal Cert.Layer.BiasRow .f32) (funext fun a => Fin.ext ?_)
  match a with
  | ⟨0, _⟩ => show win3_1.index t (0 : Fin 2) * 1 + 1 * (0 : Fin 1).val = (0 : Fin 1).val; rw [e2]; rfl
  | ⟨1, _⟩ => show win3_1.index t (1 : Fin 2) * 128 + 1 * q.val = q.val; rw [e3]; omega

/-- The output's block at point t, read off a whole array, is the array's rows 10000·t … 10000·t + 9999. -/
theorem blk3_2_apply (c : Dev nD) (t : Fin cfg3.N) (G : FVec Ideal Cert.Layer.Nodes .f32) (p : Fin 10000) (q : Fin 128)
    (n : Fin 100000) (hn : n.val = 10000 * t.val + p.val) :
    (((cfg3.win 2).blk t).view.read (Elt Ideal) G : Vec Ideal S10000x128 .f32) (ix2 p q) = G (ix2 n q) := by
  obtain ⟨-, -, -, -, e4, e5⟩ := index_facts3 t
  rw [View.read_apply]
  refine congrArg G (funext fun a => Fin.ext ?_)
  match a with
  | ⟨0, _⟩ => show win3_2.index t (0 : Fin 2) * 10000 + 1 * p.val = n.val; rw [e4, hn]; omega
  | ⟨1, _⟩ => show win3_2.index t (1 : Fin 2) * 128 + 1 * q.val = q.val; rw [e5]; omega

/-- WHAT POINT t WRITES BACK is block t of the bias step, of the whole arrays as the region finds them: entry (p, q) of
    the stored block is x (10000·t + p, q) + b (0, q). -/
theorem flushed3_eq (c : Dev nD) (t : Fin cfg3.N) :
    (dat3 (F := Ideal) V c).flushed 2 t
      = ((cfg3.win 2).blk t).view.read (Elt Ideal) (Cert.Layer.biasRows (V c main_v59) (V c main_v60)) := by
  show (cfg3.win 2).cut (grid3.coords t) ((dat3 (F := Ideal) V c).after 2 t) = _
  rw [after3_2, out3_eq]
  have entry : ∀ j : S10000x128.Idx, k3_pay1 (iblk3 (F := Ideal) V c 0 t) (iblk3 (F := Ideal) V c 1 t) j
      = (((cfg3.win 2).blk t).view.read (Elt Ideal) (Cert.Layer.biasRows (V c main_v59) (V c main_v60)) : Vec Ideal S10000x128 .f32) j := by
    intro j
    obtain ⟨p, q, rfl⟩ : ∃ (p : Fin 10000) (q : Fin 128), j = ix2 p q := ⟨j 0, j 1, eq_ix2 j⟩
    have ht := point_lt3 t
    have hp := p.isLt
    rw [pay3_apply, blk3_2_apply c t _ p q ⟨10000 * t.val + p.val, by omega⟩ rfl, Cert.Layer.biasRows_apply,
      iblk3_0_apply V c t p q ⟨10000 * t.val + p.val, by omega⟩ rfl, iblk3_1_apply V c t q]
  exact funext entry

/-- An index of the output array is in point t's block iff each coordinate is in the block's range on its axis. -/
theorem mem_blk3 (t : Fin cfg3.N) (i : S100000x128.Idx) :
    i ∈ ((cfg3.win 2).blk t).view.set
      ↔ ∀ a : Fin 2, win3_2.index t a * S10000x128.size a ≤ (i a).val ∧ (i a).val < win3_2.index t a * S10000x128.size a + S10000x128.size a := by
  show i ∈ ((View.whole main_v61).slice (win3_2.rect t)).set ↔ _
  rw [View.set_slice_whole, Rect.mem_set_unit]
  exact Iff.rfl

/-- The ten row blocks tile the output: row n is in the block of point n / 10000. -/
theorem covered3 (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  obtain ⟨t, ht⟩ : ∃ t : Fin cfg3.N, t.val = (i 0).val / 10000 :=
    ⟨⟨(i 0).val / 10000, lt_of_lt_of_eq (by omega) N_3.symm⟩, rfl⟩
  obtain ⟨-, -, -, -, e4, e5⟩ := index_facts3 t
  refine ⟨t, flush3_2 t, ?_⟩
  rw [mem_blk3]
  intro a
  match a with
  | ⟨0, _⟩ =>
    show win3_2.index t (0 : Fin 2) * 10000 ≤ (i 0).val ∧ (i 0).val < win3_2.index t (0 : Fin 2) * 10000 + 10000
    rw [e4, ht]; omega
  | ⟨1, _⟩ =>
    show win3_2.index t (1 : Fin 2) * 128 ≤ (i 1).val ∧ (i 1).val < win3_2.index t (1 : Fin 2) * 128 + 128
    rw [e5]; omega

/-! ## The two calls, as whole arrays -/

/-- After the first bias call its output array is the aggregated array plus the bias row, ramped at zero. -/
theorem region1 (c : Dev nD) :
    (dat1 (F := Ideal) V c).arrAt 2 cfg1.N = Cert.Layer.biasRowsRamp (V c main_v43) (V c main_v44) :=
  (dat1 (F := Ideal) V c).arrAt_eq_of_cover 2 _ (fun t _ => flushed1_eq V c t) (fun i => covered1 i)

/-- After the second bias call its output array is the aggregated array plus the bias row. -/
theorem region3 (c : Dev nD) :
    (dat3 (F := Ideal) V c).arrAt 2 cfg3.N = Cert.Layer.biasRows (V c main_v59) (V c main_v60) :=
  (dat3 (F := Ideal) V c).arrAt_eq_of_cover 2 _ (fun t _ => flushed3_eq V c t) (fun i => covered3 i)

end Cert.KernelIdeal.RegionBias

end
-- ==== Proof.RefBridge.lean ====
/-
  The reference's stages, folded the way the kernel program's run is read.

  The reference's result is a tower of stages of its six arguments. Four of them are a layer's own steps — the dense
  contraction and the bias step, of each layer — and two are the shared aggregation between them, applied to the source
  words, the destination words and the edge weights; the second layer computes those weights afresh from the same edge
  array, by the same operations, so they are the first layer's. Here each of the six stages is written as `Layer.dense`,
  `Layer.biasRowsRamp` / `Layer.biasRows` or `HostValues.aggregate` of the stage below it.
-/
import proofs.«170871_j63780264345731_1_alg».proof.Proof.HostValues
import proofs.«170871_j63780264345731_1_alg».proof.Proof.Layer
import proofs.«170871_j63780264345731_1_alg».proof.Proof.RefReadP
import Idealize.ShloMosaic.Lib.ValueIdx
import Idealize.ShloMosaic.Lib.ValueLayout

set_option maxRecDepth 16384

noncomputable section

namespace Cert.RefBridge

open Idealize.ShloMosaic Idealize.ShloMosaic.ValueIdx
open Cert.ReferenceIdeal Cert.ReferenceIdeal.ReadP
open Cert.KernelIdeal.HostValues (aggregate biasRow)

/-! ## The aggregation stages: the same host operations as the kernel program's, at any float family -/

section Aggregation

variable {F : FTy → Type} [FloatOps F]
variable (x0 : (⟨S100000x128, .f32⟩ : BufTy).Contents (Elt F)) (x1 : (⟨S2x1600000, .i32⟩ : BufTy).Contents (Elt F))
  (x2 : (⟨S128x128, .f32⟩ : BufTy).Contents (Elt F)) (x3 : (⟨S128, .f32⟩ : BufTy).Contents (Elt F))
  (x4 : (⟨S128x128, .f32⟩ : BufTy).Contents (Elt F))

/-- The first layer's aggregated array is the aggregation of its dense stage. -/
theorem aggregated_stage1 :
    val_main_v43 (F := F) x0 x1 x2
      = aggregate (val_main_v3 (F := F) x1) (val_main_v6 (F := F) x1) (val_main_v30 (F := F) x1) (val_main_v7 (F := F) x0 x2) := rfl

/-- The second layer's edge weights are the first layer's: the same operations of the same edge array. -/
theorem edge_weights_again : val_main_v71 (F := F) x1 = val_main_v30 (F := F) x1 := rfl

/-- The second layer's aggregated array is the aggregation of its dense stage, over the second copy of the edge weights. -/
theorem aggregated_stage2' :
    val_main_v84 (F := F) x0 x1 x2 x3 x4
      = aggregate (val_main_v3 (F := F) x1) (val_main_v6 (F := F) x1) (val_main_v71 (F := F) x1) (val_main_v48 (F := F) x0 x1 x2 x3 x4) := rfl

/-- … and so over the first layer's edge weights. -/
theorem aggregated_stage2 :
    val_main_v84 (F := F) x0 x1 x2 x3 x4
      = aggregate (val_main_v3 (F := F) x1) (val_main_v6 (F := F) x1) (val_main_v30 (F := F) x1) (val_main_v48 (F := F) x0 x1 x2 x3 x4) := by
  rw [aggregated_stage2', edge_weights_again]

end Aggregation

/-! ## The layers' own stages, over the extended reals -/

section Layers

variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))

/-- The first dense stage is the contraction of the features with the first weights. -/
theorem dense_stage1 : val_main_v7 (F := Ideal) x0 x2 = Cert.Layer.dense x0 x2 := rfl

/-- The second dense stage is the contraction of the first layer's output with the second weights. -/
theorem dense_stage2 :
    val_main_v48 (F := Ideal) x0 x1 x2 x3 x4 = Cert.Layer.dense (val_main_v47 (F := Ideal) x0 x1 x2 x3) x4 := rfl

/-- A bias vector reshaped to a row reads, at (0, q), the vector at q. -/
theorem biasRow_apply (b : (⟨S128, .f32⟩ : BufTy).Contents (Elt Ideal)) (q : Fin 128) :
    biasRow b (ix2 (0 : Fin 1) q) = b (ix1 q) :=
  shapeCast_a_1a_apply b _ (0 : Fin 1) q

/-- The reference's bias broadcast over the nodes reads, at (n, q), the vector at q. -/
theorem bias_bcast1 (n : Fin 100000) (q : Fin 128) : val_main_v45 (F := Ideal) x3 (ix2 n q) = x3 (ix1 q) := by
  rw [val_main_v45_apply, val_main_v44_apply]
  exact congrArg x3 (funext fun a => Fin.ext (by match a with | ⟨0, _⟩ => rfl))

theorem bias_bcast2 (n : Fin 100000) (q : Fin 128) : val_main_v86 (F := Ideal) x5 (ix2 n q) = x5 (ix1 q) := by
  rw [val_main_v86_apply, val_main_v85_apply]
  exact congrArg x5 (funext fun a => Fin.ext (by match a with | ⟨0, _⟩ => rfl))

/-- The first layer's output stage is the bias step and the ramp of its aggregated stage. -/
theorem bias_stage1 :
    val_main_v47 (F := Ideal) x0 x1 x2 x3
      = Cert.Layer.biasRowsRamp (val_main_v43 (F := Ideal) x0 x1 x2) (biasRow x3) := by
  funext i
  obtain ⟨n, q, rfl⟩ : ∃ (n : Fin 100000) (q : Fin 128), i = ix2 n q := ⟨i 0, i 1, eq_ix2 i⟩
  rw [Cert.Layer.biasRowsRamp_apply, biasRow_apply, val_main_v47_apply, val_main_v46_apply, bias_bcast1,
    val_main_call1_v0_apply, val_main_call1_cst_apply]

/-- The reference's result is the bias step of its second aggregated stage. -/
theorem bias_stage2 :
    val_main_v87 (F := Ideal) x0 x1 x2 x3 x4 x5
      = Cert.Layer.biasRows (val_main_v84 (F := Ideal) x0 x1 x2 x3 x4) (biasRow x5) := by
  funext i
  obtain ⟨n, q, rfl⟩ : ∃ (n : Fin 100000) (q : Fin 128), i = ix2 n q := ⟨i 0, i 1, eq_ix2 i⟩
  rw [Cert.Layer.biasRows_apply, biasRow_apply, val_main_v87_apply, bias_bcast2]

end Layers

end Cert.RefBridge

end
-- ==== Proof.Assemble.lean ====
/-
  The kernel program's result, over the extended reals, is the reference's.

  Segment by segment from the launch: the first dense call leaves the contraction of the features with the first weights
  (the reference's first dense stage); the host aggregates it along the edges (its aggregated stage); the first bias call
  adds the bias row and ramps (its first layer's output); the second dense call contracts that with the second weights;
  the host aggregates again, with the same edge words and weights; the second bias call adds the second bias row — which is
  the reference's result stage, of the same six arguments.
-/
import proofs.«170871_j63780264345731_1_alg».proof.Proof.Gen.KernelIdeal.Frame
import proofs.«170871_j63780264345731_1_alg».proof.Proof.HostValues
import proofs.«170871_j63780264345731_1_alg».proof.Proof.Prelude
import proofs.«170871_j63780264345731_1_alg».proof.Proof.RegionDense
import proofs.«170871_j63780264345731_1_alg».proof.Proof.RegionBias
import proofs.«170871_j63780264345731_1_alg».proof.Proof.RefBridge
import proofs.«170871_j63780264345731_1_alg».proof.Proof.Layer
import proofs.«170871_j63780264345731_1_alg».proof.Proof.RefReadP

set_option maxRecDepth 16384

noncomputable section

namespace Cert.KernelIdeal.Result

open Cert.KernelIdeal Cert.KernelIdeal.Gen
open Idealize.ShloMosaic Idealize.ShloMosaic.TcCoe Idealize.SL.Sem
open Cert.KernelIdeal.HostValues (aggregate biasRow)

variable (m : (ℓ : Loc nD τ sig) → Buf (Elt Ideal) ℓ) (ρ : Dev nD → PrngReg)

/-! ## An argument a later segment reads is still as launched there -/

theorem arg3_at_bias1 (c : Dev nD) : W4 m ρ c (Proc.devRef .tc main_arg3) = (m ((c : Thread nD τ).loc main_arg3)) :=
  (W4_of_ne m ρ c main_arg3 (by decide)).trans (Prelude.entry_arg3 m ρ c)

theorem arg4_at_dense2 (c : Dev nD) : W6 m ρ c (Proc.devRef .tc main_arg4) = (m ((c : Thread nD τ).loc main_arg4)) :=
  (W6_of_ne m ρ c main_arg4 (by decide)).trans
    ((HostValues.keep_hostOps1 c (W4 m ρ c) main_arg4 (by simp)).trans
      ((W4_of_ne m ρ c main_arg4 (by decide)).trans (Prelude.entry_arg4 m ρ c)))

theorem arg5_at_bias2 (c : Dev nD) : W7 m ρ c (Proc.devRef .tc main_arg5) = (m ((c : Thread nD τ).loc main_arg5)) :=
  (W7_of_ne m ρ c main_arg5 (by decide)).trans
    ((W6_of_ne m ρ c main_arg5 (by decide)).trans
      ((HostValues.keep_hostOps1 c (W4 m ρ c) main_arg5 (by simp)).trans
        ((W4_of_ne m ρ c main_arg5 (by decide)).trans (Prelude.entry_arg5 m ρ c))))

/-! ## The segments, in order -/

/-- After the first dense call: the reference's first dense stage. -/
theorem dense1 (c : Dev nD) :
    W4 m ρ c (Proc.devRef .tc main_v30) = Cert.ReferenceIdeal.ReadP.val_main_v7 (F := Ideal) (m ((c : Thread nD τ).loc main_arg0)) (m ((c : Thread nD τ).loc main_arg2)) := by
  refine (W4_arr m ρ c 2).trans ((RegionDense.region0 (V3 m ρ) c).trans ?_)
  have e0 : V3 m ρ c main_arg0 = (m ((c : Thread nD τ).loc main_arg0)) := Prelude.entry_arg0 m ρ c
  have e2 : V3 m ρ c main_arg2 = (m ((c : Thread nD τ).loc main_arg2)) := Prelude.entry_arg2 m ρ c
  rw [e0, e2]
  exact (Cert.RefBridge.dense_stage1 _ _).symm

/-- Before the first bias call: the reference's first aggregated stage. -/
theorem aggregated1 (c : Dev nD) :
    W5 m ρ c (Proc.devRef .tc main_v43) = Cert.ReferenceIdeal.ReadP.val_main_v43 (F := Ideal) (m ((c : Thread nD τ).loc main_arg0)) (m ((c : Thread nD τ).loc main_arg1)) (m ((c : Thread nD τ).loc main_arg2)) := by
  refine (HostValues.aggregated1 m ρ c).trans ?_
  rw [HostValues.W4_keep m ρ c main_v3 (by simp), HostValues.W4_keep m ρ c main_v6 (by simp),
    HostValues.W4_keep m ρ c main_v29 (by simp), Prelude.src_words, Prelude.dst_words, Prelude.edge_weights, dense1]
  exact (Cert.RefBridge.aggregated_stage1 _ _ _).symm

/-- Before the first bias call: the first bias as a row. -/
theorem biasRow1 (c : Dev nD) : W5 m ρ c (Proc.devRef .tc main_v44) = biasRow (m ((c : Thread nD τ).loc main_arg3)) := by
  rw [HostValues.biasRow1, arg3_at_bias1]

/-- After the first bias call: the reference's first layer's output. -/
theorem layer1 (c : Dev nD) :
    W6 m ρ c (Proc.devRef .tc main_v45) = Cert.ReferenceIdeal.ReadP.val_main_v47 (F := Ideal) (m ((c : Thread nD τ).loc main_arg0)) (m ((c : Thread nD τ).loc main_arg1)) (m ((c : Thread nD τ).loc main_arg2)) (m ((c : Thread nD τ).loc main_arg3)) := by
  refine (W6_arr m ρ c 2).trans ((RegionBias.region1 (V5 m ρ) c).trans ?_)
  have e43 : V5 m ρ c main_v43 = _ := aggregated1 m ρ c
  have e44 : V5 m ρ c main_v44 = _ := biasRow1 m ρ c
  rw [e43, e44]
  exact (Cert.RefBridge.bias_stage1 _ _ _ _).symm

/-- After the second dense call: the reference's second dense stage. -/
theorem dense2 (c : Dev nD) :
    W7 m ρ c (Proc.devRef .tc main_v46) = Cert.ReferenceIdeal.ReadP.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W7_arr m ρ c 2).trans ((RegionDense.region2 (V6 m ρ) c).trans ?_)
  have e45 : V6 m ρ c main_v45 = _ := layer1 m ρ c
  have e4 : V6 m ρ c main_arg4 = _ := arg4_at_dense2 m ρ c
  rw [e45, e4]
  exact (Cert.RefBridge.dense_stage2 _ _ _ _ _).symm

/-- Before the second bias call: the reference's second aggregated stage. -/
theorem aggregated2 (c : Dev nD) :
    W8 m ρ c (Proc.devRef .tc main_v59) = Cert.ReferenceIdeal.ReadP.val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (HostValues.aggregated2 m ρ c).trans ?_
  rw [HostValues.W7_keep m ρ c main_v3 (by simp), HostValues.W7_keep m ρ c main_v6 (by simp),
    HostValues.W7_keep m ρ c main_v29 (by simp), Prelude.src_words, Prelude.dst_words, Prelude.edge_weights, dense2]
  exact (Cert.RefBridge.aggregated_stage2 _ _ _ _ _).symm

/-- Before the second bias call: the second bias as a row. -/
theorem biasRow2 (c : Dev nD) : W8 m ρ c (Proc.devRef .tc main_v60) = biasRow (m ((c : Thread nD τ).loc main_arg5)) := by
  rw [HostValues.biasRow2, arg5_at_bias2]

/-- THE RESULT: after the last call the result array holds the reference's result stage of the launch arguments. -/
theorem value (c : Dev nD) :
    W9 m ρ c (Proc.devRef .tc main_v61) = Cert.ReferenceIdeal.ReadP.val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W9_arr m ρ c 2).trans ((RegionBias.region3 (V8 m ρ) c).trans ?_)
  have e59 : V8 m ρ c main_v59 = _ := aggregated2 m ρ c
  have e60 : V8 m ρ c main_v60 = _ := biasRow2 m ρ c
  rw [e59, e60]
  exact (Cert.RefBridge.bias_stage2 _ _ _ _ _ _).symm

end Cert.KernelIdeal.Result

end
-- ==== Proof.lean ====
/-
  A two-layer graph convolution: the kernel program against its reference, over the extended reals.

  Each layer is out = D^(-1/2) (A + I) D^(-1/2) (x W) + b over 100000 nodes, 1600000 edges and 128 features, the first
  followed by the ramp. The kernel program computes x W and the bias step (with the ramp) in four kernel calls of ten row
  blocks each and leaves the degree normalisation and the gather / scatter-add along the edges to the host, as the
  reference does for everything. At the extended reals a kernel call's matrix product into a zero accumulator over
  bf16-narrowed operands is the host's contraction (narrowing changes nothing there, and both are the sum over k of
  x (n, k) · W (k, q)), and its bias step is the host's broadcast and add (and maximum with zero); the host operations
  between the calls are the reference's own, applied to equal arrays. So the two results are one function of the six
  arguments: the reference's result stage. No law of the extended reals beyond these readings is used, and the
  precondition (finite inputs) is not opened.

  The frames of the kernel program, at both instances, are the generated ones; the reference's frame is its run with the
  result dropped; the ideal pass rewrote nothing, so there is nothing to preserve.
-/
import proofs.«170871_j63780264345731_1_alg».proof.Defs
import proofs.«170871_j63780264345731_1_alg».proof.Proof.Gen.Kernel
import proofs.«170871_j63780264345731_1_alg».proof.Proof.Gen.Kernel.Frame
import proofs.«170871_j63780264345731_1_alg».proof.Proof.Gen.KernelIdeal
import proofs.«170871_j63780264345731_1_alg».proof.Proof.Gen.KernelIdeal.Frame
import proofs.«170871_j63780264345731_1_alg».proof.Proof.Gen.ReferenceIdeal
import proofs.«170871_j63780264345731_1_alg».proof.Proof.Gen.Pre_finite_inputs
import proofs.«170871_j63780264345731_1_alg».proof.Proof.KRun
import proofs.«170871_j63780264345731_1_alg».proof.Proof.RefRunP
import proofs.«170871_j63780264345731_1_alg».proof.Proof.RefReadP
import proofs.«170871_j63780264345731_1_alg».proof.Proof.Assemble
import Idealize.ShloMosaic.Adequacy
import Idealize.ShloMosaic.Init

noncomputable section

namespace Cert.Proof

open Idealize.ShloMosaic Idealize.ShloMosaic.TcCoe Idealize.SL.Sem

/-- The kernel program as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- Both programs end with the result array at the reference's result stage of the arguments, which agree. -/
theorem algebraic : Cert.algebraic_KernelIdeal_ReferenceIdeal := by
  intro m ρ m' ρ' _ hagree
  refine ⟨fun c => Cert.ReferenceIdeal.ReadP.val_main_v87 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Result.value m ρ c), (h c).2⟩) (Cert.KernelIdeal.GenRun.run_named m ρ)
  · refine (θ_run Cert.ReferenceIdeal.defs _ _).mono (fun r h c => ⟨?_, (h c).2⟩) (Cert.ReferenceIdeal.ValueP.run (F := Ideal) m' ρ')
    obtain ⟨a0, a1, a2, a3, a4, a5⟩ := hagree c
    rw [(h c).1, Cert.ReferenceIdeal.ReadP.val_main_v87_eq, a0, a1, a2, a3, a4, a5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
